-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) (main_arg2 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  let main_v9 : FVec F S33554432 .f32 := Host.absf main_arg2
  let main_cst_2 : FVec F S_ .f32 := constant S_ .f32 0x7F800000#32
  let main_v10 : FVec F S33554432 .f32 := broadcastInDim S33554432 ![] bcast_S_S33554432 main_cst_2
  let main_v11 : IVec S33554432 1 := cmpf .olt main_v9 main_v10
  let main_c_3 : IVec S_ 1 := constantI S_ 1 1#1
  let main_v12 : IVec S_ 1 := (fun x v => Host.reduce IntOp.andi x v reducesTo_S33554432_S_d0 h_S_) main_v11 main_c_3
  let main_v13 : IVec S_ 1 := andi main_v8 main_v12
  main_v13
-- ==== Kernel.lean ====
abbrev S33554432 : Shape := ⟨1, ![33554432]⟩
abbrev S262144x128 : Shape := ⟨2, ![262144, 128]⟩
abbrev S1x8 : Shape := ⟨2, ![1, 8]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩
abbrev S6 : Shape := ⟨1, ![6]⟩
abbrev S2 : Shape := ⟨1, ![2]⟩
abbrev S8 : Shape := ⟨1, ![8]⟩
abbrev S_ : Shape := ⟨0, ![]⟩

abbrev nBuf : Space → Nat
  | .hbm => 34
  | .vmem => 8
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S262144x128, .f32⟩
  | .hbm, ⟨4, _⟩ => ⟨S262144x128, .f32⟩
  | .hbm, ⟨5, _⟩ => ⟨S262144x128, .f32⟩
  | .hbm, ⟨6, _⟩ => ⟨S1x8, .f32⟩
  | .hbm, ⟨7, _⟩ => ⟨S8, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x8, .f32⟩
  | .local _ .vmem, ⟨7, _⟩ => ⟨S1x8, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v56 : BitVec 1 := Scalar.cmpi .eq arg0 c31_i32
  let v57 : BitVec 32 := Scalar.extui v56
  let c0_i32_16 : BitVec 32 := 0#32
  let v58 : BitVec 1 := Scalar.cmpi .ne v57 c0_i32_16
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S33554432_S262144x128 : S33554432.ShapeCasts S262144x128
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S1_S6_d0 : Shape.Concatenates [S1, S1, S1, S1, S1, S1] S6 0
  concatenates_S6_S2_S8_d0 : Shape.Concatenates [S6, S2] S8 0
  shapeCasts_S8_S1x8 : S8.ShapeCasts S1x8
  shapeCasts_S1x8_S8 : S1x8.ShapeCasts S8
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S1 : Shape := ⟨1, ![1]⟩

abbrev nBuf : Space → Nat
  | .hbm => 37
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S_, .f32⟩
  | .hbm, ⟨5, _⟩ => ⟨S33554432, .f32⟩
  | .hbm, ⟨6, _⟩ => ⟨S_, .f32⟩
  | .hbm, ⟨7, _⟩ => ⟨S_, .f32⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S_, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel
  shapeCasts_S_S1 : S_.ShapeCasts S1

variable [Facts₀]

class Facts : Prop extends Facts₀ where

variable [Facts]
-- ==== Proof.Pieces.lean ====
/-
  What one run of the kernel body leaves behind, in each of its three control cases, as a value.

  The body keeps a row of eight running totals in a scratch buffer between grid points. At the first grid point it
  stores a row of zeros there, reads it back, and stores that row plus the point's eight block totals; at every later
  point it reads the kept row and stores it plus the point's block totals; at the last point it also copies the row it
  has just stored into the output block. In each case the buffer ends holding `step` of the input blocks and the row
  the sum started from: the stores cover the buffer, and a load after a covering store reads what was stored.
  Stated for any float instance.
-/
import proofs.«114872_j74758200754433_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

/-- The origin of a rank-2 buffer, as the constant function. -/
theorem origin2 : (![0, 0] : Fin 2 → Nat) = fun _ => 0 := funext fun a => by fin_cases a <;> rfl

/-- The row the body stores at a grid point: the row `acc` it starts from plus the eight block totals of the point's
    input blocks `x0`, `x1`, `x2` (samples, samples, weights). -/
abbrev step (x0 x1 x2 : Vec F S8192x128 .f32) (acc : Vec F S1x8 .f32) : Vec F S1x8 .f32 :=
  k0_pay1 (k0_pay6 x0 x2) (k0_pay7 x1 x2) (k0_pay8 x0 x1 x2) (k0_pay9 x2) (k0_pay10 x0 x2) (k0_pay11 x1 x2) acc

/-- A middle point (neither first nor last): the scratch row ends at the kept row plus the block totals. -/
theorem scratch_middle (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x8 .f32) (h4 : a4.IsWhole) (a5 : Memref sig .tc .vmem S1x8 .f32) (h5 : a5.IsWhole)
    (hc0 : ¬cond0_0 i) (hc1 : ¬cond0_1 i) (x0 x1 x2 : Vec F S8192x128 .f32) (xs0 : Vec F S1x8 .f32) :
    sout0_B_0 c i a1 h1 a2 h2 a3 h3 a4 h4 a5 h5 hc0 hc1 x0 x1 x2 xs0 = step x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero origin2]
  simp only [View.readAt_eq_ld, h1.read_unread, h2.read_unread, h3.read_unread, h5.read_unread,
    View.ld_unit_zero (S := S8192x128) origin2, View.ld_unit_zero (S := S1x8) origin2]

/-- The last point: the scratch row likewise … -/
theorem scratch_last (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x8 .f32) (h4 : a4.IsWhole) (a5 : Memref sig .tc .vmem S1x8 .f32) (h5 : a5.IsWhole)
    (hc0 : ¬cond0_0 i) (hc1 : cond0_1 i) (x0 x1 x2 : Vec F S8192x128 .f32) (xs0 : Vec F S1x8 .f32) :
    sout0_C_0 c i a1 h1 a2 h2 a3 h3 a4 h4 a5 h5 hc0 hc1 x0 x1 x2 xs0 = step x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero origin2]
  simp only [View.readAt_eq_ld, h1.read_unread, h2.read_unread, h3.read_unread, h5.read_unread,
    View.ld_unit_zero (S := S8192x128) origin2, View.ld_unit_zero (S := S1x8) origin2]

/-- … and the output block is a copy of it: the body reads the scratch row back after storing it. -/
theorem output_last (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x8 .f32) (h4 : a4.IsWhole) (a5 : Memref sig .tc .vmem S1x8 .f32) (h5 : a5.IsWhole)
    (hc0 : ¬cond0_0 i) (hc1 : cond0_1 i) (x0 x1 x2 : Vec F S8192x128 .f32) (xs0 : Vec F S1x8 .f32) :
    out0_C_3 c i a1 h1 a2 h2 a3 h3 a4 h4 a5 h5 hc0 hc1 x0 x1 x2 xs0 = step x0 x1 x2 xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero origin2]
  simp only [View.readAt_eq_ld, h1.read_unread, h2.read_unread, h3.read_unread, h5.read_unread,
    View.readCov_unit_zero (S := S1x8) _ origin2, View.ld_unit_zero (S := S8192x128) origin2,
    View.ld_unit_zero (S := S1x8) origin2]

/-- The first point: the row the sum starts from is the row of zeros the body has just stored. -/
theorem scratch_first (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x8 .f32) (h4 : a4.IsWhole) (a5 : Memref sig .tc .vmem S1x8 .f32) (h5 : a5.IsWhole)
    (hc0 : cond0_0 i) (hc1 : ¬cond0_1 i) (x0 x1 x2 : Vec F S8192x128 .f32) :
    sout0_A_0 c i a1 h1 a2 h2 a3 h3 a4 h4 a5 h5 hc0 hc1 x0 x1 x2 = step x0 x1 x2 k0_pay2 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x8) origin2]
  simp only [View.readAt_eq_ld, h1.read_unread, h2.read_unread, h3.read_unread,
    View.readCov_unit_zero (S := S1x8) _ origin2, View.ld_unit_zero (S := S8192x128) origin2,
    View.ld_unit_zero (S := S1x8) origin2]

end Cert.KernelIdeal.Pieces

end
-- ==== Proof.LibBlockSum.lean ====
/-
  Blocked sums, for kernels that reduce an array block by block.

  * `blockPos t r c`: the row-major position `(t · R + r) · C + c` of entry `(r, c)` of block `t` when a flat array of
    `T · (R · C)` entries is read as `T` blocks of `R` rows of `C` lanes, and `sum_blocks`: a sum over the flat
    positions is the triple sum over blocks, rows and lanes (in any commutative additive monoid: no order matters).
  * `sum_idx1`, `sum_idx3u`: a sum over the index set of a rank-1 shape, and of a rank-3 shape with a leading unit
    axis, as sums over the coordinates.
  * `multiReduction_total_extract`: at the extended reals, a block `[a, b]` viewed as `[1, a, b]`, add-reduced over
    axes 1 and 2 into one entry and extracted, is the double sum of the block over its rows and lanes — what
    `jnp.sum` of a block lowers to inside a kernel.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibBlockSum

open Idealize.ShloMosaic Idealize.ShloMosaic.ValueIdx Idealize.ShloMosaic.Pipeline

/-- The flat position of entry `(r, c)` of block `t`: the two-step mixed-radix numbering. -/
def blockPos {T R C : Nat} (t : Fin T) (r : Fin R) (c : Fin C) : Fin (T * (R * C)) :=
  finProdFinEquiv (t, finProdFinEquiv (r, c))

theorem blockPos_val {T R C : Nat} (t : Fin T) (r : Fin R) (c : Fin C) :
    (blockPos t r c).val = (t.val * R + r.val) * C + c.val := by
  show c.val + C * r.val + R * C * t.val = (t.val * R + r.val) * C + c.val
  ring

/-- A sum over the flat positions is the sum over blocks, rows and lanes. -/
theorem sum_blocks {M : Type*} [AddCommMonoid M] {T R C : Nat} (g : Fin (T * (R * C)) → M) :
    ∑ a, g a = ∑ t : Fin T, ∑ r : Fin R, ∑ c : Fin C, g (blockPos t r c) := by
  rw [← Equiv.sum_comp (finProdFinEquiv (m := T) (n := R * C)) g, Fintype.sum_prod_type]
  refine Finset.sum_congr rfl fun t _ => ?_
  rw [← Equiv.sum_comp (finProdFinEquiv (m := R) (n := C)) fun q => g (finProdFinEquiv (t, q)), Fintype.sum_prod_type]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The zero of a unit axis. -/
abbrev u0 : Fin 1 := 0

/-- A rank-3 index set with a leading unit axis is the product of its two other coordinate ranges … -/
def idxEquiv3u {a b : Nat} : (⟨3, ![1, a, b]⟩ : Shape).Idx ≃ Fin a × Fin b where
  toFun i := (i 1, i 2)
  invFun p := ix3 u0 p.1 p.2
  left_inv i := by
    funext d
    match d with
    | ⟨0, _⟩ => exact Fin.ext (by have h := (i 0).isLt; show 0 = (i 0).val; simp at h; omega)
    | ⟨1, _⟩ => rfl
    | ⟨2, _⟩ => rfl
  right_inv _ := rfl

/-- … so a sum over it is the double sum over rows and lanes. -/
theorem sum_idx3u {M : Type*} [AddCommMonoid M] {a b : Nat} (f : (⟨3, ![1, a, b]⟩ : Shape).Idx → M) :
    ∑ i, f i = ∑ r : Fin a, ∑ c : Fin b, f (ix3 u0 r c) := by
  rw [← Equiv.sum_comp (idxEquiv3u (a := a) (b := b)).symm f, Fintype.sum_prod_type]
  rfl

/-- A block summed inside a kernel: cast to `[1, a, b]`, add-reduced over axes 1 and 2 into a one-entry vector, cast to
    `[1, 1, 1]` and extracted — the sum of the block over its rows and lanes. -/
theorem multiReduction_total_extract {a b : Nat} (v : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩)
    (hc' : (⟨1, ![1]⟩ : Shape).ShapeCasts ⟨3, ![1, 1, 1]⟩)
    (hp : ∀ d, (![0, 0, 0] : Fin 3 → Nat) d < (⟨3, ![1, 1, 1]⟩ : Shape).size d)
    (hacc : (0x00000000#32 : BitVec 32) = 0x00000000#32) :
    extractAt ![0, 0, 0] (shapeCast ⟨3, ![1, 1, 1]⟩ (multiReduction .add [1, 2] ⟨1, ![1]⟩
        (shapeCast ⟨3, ![1, a, b]⟩ v hc) 0x00000000#32 hr (.inl rfl) hacc) hc') hp
      = ∑ r : Fin a, ∑ c : Fin b, v (ix2 r c) := by
  unfold extractAt
  refine (shapeCast_apply _ hc' _ (ix1 (0 : Fin 1)) (by
    rw [Shape.rowMajor_val_three, Shape.rowMajor_val_one]; rfl)).trans ?_
  refine (Ideal.multiReduction_add_total _ 0x00000000#32 hr (fun d => by fin_cases d; rfl) (.inl rfl) hacc
    (ix1 0)).trans ?_
  rw [sum_idx3u]
  refine Finset.sum_congr rfl fun r _ => Finset.sum_congr rfl fun c _ => ?_
  exact shapeCast_ab_1ab_apply v hc u0 r c

end Cert.LibBlockSum

end
-- ==== Proof.Spec.lean ====
/-
  The weighted Pearson correlation as ONE function of the three flat arrays, over the extended reals.

  With `x`, `y` the samples and `n` the weights (2^25 entries each), six totals over all positions

      Σ n,  Σ n·x,  Σ n·y,  Σ n·x·x,  Σ n·y·y,  Σ x·y·n

  determine the result `(S₀·S₅ − S₁·S₂) / (√(S₀·S₃ − S₁·S₁) · √(S₀·S₄ − S₂·S₂))`. A total is a sum over the flat
  positions of a pointwise function of the three entries; read block by block (32 row blocks of 8192 × 128 entries) it is
  the sum of the blocks' totals, since a sum in a commutative monoid may be regrouped at will (`sum_flat`, from
  Proof/LibBlockSum.lean). The closing
  arithmetic is kept as one opaque function of the six totals: both programs apply the same operations to them.
-/
import proofs.«114872_j74758200754433_1_alg».proof.Proof.LibBlockSum

noncomputable section

open scoped BigOperators

namespace Cert.WeightedSums

open Idealize.ShloMosaic Idealize.ShloMosaic.ValueIdx Cert.LibBlockSum

/-- The row-major position, in the flat array of 2^25 entries, of entry `(r, c)` of row block `t`. -/
def flat (t : Fin 32) (r : Fin 8192) (c : Fin 128) : Fin 33554432 :=
  ⟨(t.val * 8192 + r.val) * 128 + c.val, by have := t.isLt; have := r.isLt; have := c.isLt; omega⟩

theorem flat_val (t : Fin 32) (r : Fin 8192) (c : Fin 128) : (flat t r c).val = (t.val * 8192 + r.val) * 128 + c.val := rfl

/-- A sum over the flat positions is the sum over the 32 blocks, their 8192 rows and 128 lanes. -/
theorem sum_flat {M : Type*} [AddCommMonoid M] (g : Fin 33554432 → M) :
    ∑ a, g a = ∑ t : Fin 32, ∑ r : Fin 8192, ∑ c : Fin 128, g (flat t r c) :=
  (sum_blocks (T := 32) (R := 8192) (C := 128) g).trans
    (Finset.sum_congr rfl fun t _ => Finset.sum_congr rfl fun r _ => Finset.sum_congr rfl fun c _ =>
      congrArg g (Fin.ext (blockPos_val t r c)))

/-- The flat arrays' shape, a row block's, the totals' (rank 0) and the result's. -/
abbrev SFlat : Shape := ⟨1, ![33554432]⟩
abbrev SBlock : Shape := ⟨2, ![8192, 128]⟩
abbrev SScalar : Shape := ⟨0, ![]⟩
abbrev SOne : Shape := ⟨1, ![1]⟩

/-- A total: the sum, over every flat position, of a pointwise function `φ` of the three entries there. -/
def total (φ : EReal → EReal → EReal → EReal) (x y n : FVec Ideal SFlat .f32) : FVec Ideal SScalar .f32 :=
  fun _ => ∑ a : Fin 33554432, φ (x (ix1 a)) (y (ix1 a)) (n (ix1 a))

/-- One row block's share of a total: the same pointwise function summed over the block's rows and lanes. -/
def blockTotal (φ : EReal → EReal → EReal → EReal) (x y n : FVec Ideal SBlock .f32) : EReal :=
  ∑ r : Fin 8192, ∑ c : Fin 128, φ (x (ix2 r c)) (y (ix2 r c)) (n (ix2 r c))

/-- The blocks' shares add up to the total, whenever block `t` holds, at `(r, c)`, the flat entry at
    `(t · 8192 + r) · 128 + c`. -/
theorem sum_blockTotal (φ : EReal → EReal → EReal → EReal) (x y n : FVec Ideal SFlat .f32)
    (xb yb nb : Fin 32 → FVec Ideal SBlock .f32)
    (hx : ∀ t r c, xb t (ix2 r c) = x (ix1 (flat t r c))) (hy : ∀ t r c, yb t (ix2 r c) = y (ix1 (flat t r c)))
    (hn : ∀ t r c, nb t (ix2 r c) = n (ix1 (flat t r c))) (j : SScalar.Idx) :
    ∑ t : Fin 32, blockTotal φ (xb t) (yb t) (nb t) = total φ x y n j := by
  unfold total blockTotal
  rw [sum_flat]
  refine Finset.sum_congr rfl fun t _ => Finset.sum_congr rfl fun r _ => Finset.sum_congr rfl fun c _ => ?_
  rw [hx, hy, hn]

/-- The six pointwise functions, in the order the totals are kept. -/
abbrev φ0 : EReal → EReal → EReal → EReal := fun _ _ n => n
abbrev φ1 : EReal → EReal → EReal → EReal := fun x _ n => n * x
abbrev φ2 : EReal → EReal → EReal → EReal := fun _ y n => n * y
abbrev φ3 : EReal → EReal → EReal → EReal := fun x _ n => n * x * x
abbrev φ4 : EReal → EReal → EReal → EReal := fun _ y n => n * y * y
abbrev φ5 : EReal → EReal → EReal → EReal := fun x y n => x * y * n

/-- The same six, by place. -/
def Φ : Fin 6 → EReal → EReal → EReal → EReal := ![φ0, φ1, φ2, φ3, φ4, φ5]

/-- The closing arithmetic on the six totals: numerator over the product of the two roots, as a one-entry array. -/
def closing (h : SScalar.ShapeCasts SOne) (s0 s1 s2 s3 s4 s5 : FVec Ideal SScalar .f32) : FVec Ideal SOne .f32 :=
  shapeCast SOne
    (Host.divf (F := Ideal) (subf (mulf s0 s5) (mulf s1 s2))
      (mulf (Host.sqrt (F := Ideal) (subf (mulf s0 s3) (mulf s1 s1)))
        (Host.sqrt (F := Ideal) (subf (mulf s0 s4) (mulf s2 s2))))) h

/-- The weighted Pearson correlation of `x` and `y` under the weights `n`. -/
def correlation (h : SScalar.ShapeCasts SOne) (x y n : FVec Ideal SFlat .f32) : FVec Ideal SOne .f32 :=
  closing h (total φ0 x y n) (total φ1 x y n) (total φ2 x y n) (total φ3 x y n) (total φ4 x y n) (total φ5 x y n)

end Cert.WeightedSums

end
-- ==== Proof.Payload.lean ====
/-
  What the kernel body computes at one grid point, read at the extended reals.

  From its three input blocks `x`, `y`, `n` (8192 × 128 each) the body forms six block totals — each a product of
  blocks, viewed as a [1, 8192, 128] array, summed over its two long axes into a one-entry vector and extracted — lays
  them side by side with two zeros into a row of eight entries, and adds that row to the row it keeps between grid
  points. Entry `k < 6` of the row it stores is therefore the kept entry plus block total `k`. The first grid point
  starts from the row of zeros.
-/
import proofs.«114872_j74758200754433_1_alg».proof.Proof.Gen.KernelIdeal.Skeleton
import proofs.«114872_j74758200754433_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.WeightedSums
open Idealize.ShloMosaic.Pipeline Cert.LibBlockSum

/-- The body's reduction of a block: cast to [1, 8192, 128], summed over axes 1 and 2, the one entry extracted —
    the sum of the block over its rows and lanes. -/
theorem reduce_extract (v : FVec Ideal S8192x128 .f32) :
    extractAt ![0, 0, 0] (shapeCast S1x1x1 (multiReduction .add [1, 2] S1
        (shapeCast S1x8192x128 v shapeCasts_S8192x128_S1x8192x128) 0x00000000#32 reduces_S1x8192x128_S1 (.inl rfl) rfl)
        shapeCasts_S1_S1x1x1) inpos_S1x1x1_p0_0_0
      = ∑ r : Fin 8192, ∑ c : Fin 128, v (ix2 r c) :=
  multiReduction_total_extract v shapeCasts_S8192x128_S1x8192x128 reduces_S1x8192x128_S1 shapeCasts_S1_S1x1x1
    inpos_S1x1x1_p0_0_0 rfl

/-- Six one-entry vectors laid side by side: entry `k` of the result is the entry of the `k`-th. -/
theorem concat6_apply {α : Type} (a0 a1 a2 a3 a4 a5 : S1.Idx → α) (h : Shape.Concatenates [S1, S1, S1, S1, S1, S1] S6 0)
    (k : Fin 6) :
    concatenate S6 0 [⟨S1, a0⟩, ⟨S1, a1⟩, ⟨S1, a2⟩, ⟨S1, a3⟩, ⟨S1, a4⟩, ⟨S1, a5⟩] h (ix1 k)
      = ![a0, a1, a2, a3, a4, a5] k (ix1 (0 : Fin 1)) := by
  have hi : ∀ b : Fin S1.rank, b.cast (rfl : S1.rank = S6.rank) ≠ (0 : Fin S6.rank) →
      ((ix1 (0 : Fin 1) : S1.Idx) b).val = ((ix1 k : S6.Idx) (b.cast rfl)).val :=
    fun b hb => match b with | ⟨0, _⟩ => absurd rfl hb
  have piece := concatenate_apply_piece (0 : Fin S6.rank)
    [⟨S1, a0⟩, ⟨S1, a1⟩, ⟨S1, a2⟩, ⟨S1, a3⟩, ⟨S1, a4⟩, (⟨S1, a5⟩ : (s : Shape) × (s.Idx → α))] h (ix1 k)
  fin_cases k
  · exact piece 0 (by show (0 : ℕ) < 6; omega) S1 a0 rfl rfl 0 rfl (ix1 0) hi rfl
  · exact piece 1 (by show (1 : ℕ) < 6; omega) S1 a1 rfl rfl 1 rfl (ix1 0) hi rfl
  · exact piece 2 (by show (2 : ℕ) < 6; omega) S1 a2 rfl rfl 2 rfl (ix1 0) hi rfl
  · exact piece 3 (by show (3 : ℕ) < 6; omega) S1 a3 rfl rfl 3 rfl (ix1 0) hi rfl
  · exact piece 4 (by show (4 : ℕ) < 6; omega) S1 a4 rfl rfl 4 rfl (ix1 0) hi rfl
  · exact piece 5 (by show (5 : ℕ) < 6; omega) S1 a5 rfl rfl 5 rfl (ix1 0) hi rfl

/-- Six entries followed by two: the first six entries of the result are the six. -/
theorem concat62_apply {α : Type} (u : S6.Idx → α) (z : S2.Idx → α) (h : Shape.Concatenates [S6, S2] S8 0) (k : Fin 6) :
    concatenate S8 0 [⟨S6, u⟩, ⟨S2, z⟩] h (ix1 (k.castLE (by decide) : Fin 8)) = u (ix1 k) :=
  concatenate_pair_apply_left 0 u z h _ rfl (ix1 k) fun b => match b with | ⟨0, _⟩ => rfl

section Totals
variable (x y n : FVec Ideal S8192x128 .f32)

/-- The six block totals the body forms, as the specification's block totals of the samples `x`, `y` and the weights
    `n`: `Σ n`, `Σ n·x`, `Σ n·y`, `Σ (n·x)·x`, `Σ (n·y)·y`, `Σ (x·y)·n`. -/
theorem total_n : k0_pay9 (F := Ideal) n (ix1 (0 : Fin 1)) = blockTotal φ0 x y n := by
  unfold k0_pay9 k0_pay5
  simp only [shapeCast_self, broadcast_apply]
  exact reduce_extract n

theorem total_nx : k0_pay10 (F := Ideal) x n (ix1 (0 : Fin 1)) = blockTotal φ1 x y n := by
  unfold k0_pay10 k0_pay5 k0_pay3
  simp only [shapeCast_self, broadcast_apply]
  exact reduce_extract (mulf n x)

theorem total_ny : k0_pay11 (F := Ideal) y n (ix1 (0 : Fin 1)) = blockTotal φ2 x y n := by
  unfold k0_pay11 k0_pay5 k0_pay4
  simp only [shapeCast_self, broadcast_apply]
  exact reduce_extract (mulf n y)

theorem total_nxx : k0_pay6 (F := Ideal) x n = blockTotal φ3 x y n := by
  unfold k0_pay6 k0_pay5 k0_pay3
  simp only [shapeCast_self]
  exact reduce_extract (mulf (mulf n x) x)

theorem total_nyy : k0_pay7 (F := Ideal) y n = blockTotal φ4 x y n := by
  unfold k0_pay7 k0_pay5 k0_pay4
  simp only [shapeCast_self]
  exact reduce_extract (mulf (mulf n y) y)

theorem total_xyn : k0_pay8 (F := Ideal) x y n = blockTotal φ5 x y n := by
  unfold k0_pay8 k0_pay5 k0_pay4 k0_pay3
  simp only [shapeCast_self]
  exact reduce_extract (mulf (mulf x y) n)

/-- The row the body stores at a grid point, entry by entry: the kept entry plus the block total of that place. -/
theorem step_apply (acc : Vec Ideal S1x8 .f32) (k : Fin 6) :
    k0_pay1 (F := Ideal) (k0_pay6 x n) (k0_pay7 y n) (k0_pay8 x y n) (k0_pay9 n) (k0_pay10 x n) (k0_pay11 y n) acc
        (ix2 (0 : Fin 1) (k.castLE (by decide) : Fin 8))
      = acc (ix2 (0 : Fin 1) (k.castLE (by decide) : Fin 8))
        + blockTotal (Φ k) x y n := by
  unfold k0_pay1
  simp only [shapeCast_self]
  rw [addf_apply]
  congr 1
  refine (shapeCast_a_1a_apply _ shapeCasts_S8_S1x8 0 _).trans ?_
  refine (concat62_apply _ _ _ k).trans ?_
  refine (concat6_apply _ _ _ _ _ _ _ k).trans ?_
  fin_cases k
  · exact total_n x y n
  · exact total_nx x y n
  · exact total_ny x y n
  · exact total_nxx x y n
  · exact total_nyy x y n
  · exact total_xyn x y n

end Totals

/-- The row the first grid point starts from is zero everywhere. -/
theorem zero_row_apply (j : S1x8.Idx) : k0_pay2 (F := Ideal) j = 0 := by
  unfold k0_pay2
  simp only [shapeCast_self, broadcast_apply]
  exact Ideal.ofBits_zero_f32

end Cert.KernelIdeal.Payload

end
-- ==== Proof.KernelValue.lean ====
/-
  The kernel's result, read off its run at the extended reals.

  Grid point `t` reads row block `t` of each array (the flat array viewed as 262144 × 128): entry `(r, c)` of its
  block is the flat entry at `(t · 8192 + r) · 128 + c`. The row of running totals the body keeps therefore holds,
  after point `n`, in each of its first six places the sum over the points `0 … n` of that place's block total; after
  the last point this is the total over the whole array, and the row is what the one write-back puts into the
  output. The operations after the call read the six places and apply the closing arithmetic.
-/
import proofs.«114872_j74758200754433_1_alg».proof.Proof.Pieces
import proofs.«114872_j74758200754433_1_alg».proof.Proof.Payload
import Idealize.ShloMosaic.Lib.StableHlo.Run

noncomputable section

open scoped BigOperators

namespace Cert.KernelIdeal.Totals

open Cert.KernelIdeal Cert.KernelIdeal.Gen Idealize.ShloMosaic Idealize.ShloMosaic.TcCoe Idealize.SL.Sem
open Idealize.ShloMosaic.ValueIdx Cert.WeightedSums Cert.KernelIdeal.Pieces Cert.KernelIdeal.Payload
open Idealize.ShloMosaic.Pipeline (Dat)

variable (m : (ℓ : Loc nD τ sig) → Buf (Elt Ideal) ℓ) (ρ : Dev nD → PrngReg)

/-- The three argument arrays … -/
abbrev xarr (c : Dev nD) : FVec Ideal S33554432 .f32 := m ((c.tc : Thread nD τ).loc main_arg0)
abbrev yarr (c : Dev nD) : FVec Ideal S33554432 .f32 := m ((c.tc : Thread nD τ).loc main_arg1)
abbrev narr (c : Dev nD) : FVec Ideal S33554432 .f32 := m ((c.tc : Thread nD τ).loc main_arg2)
/-- … and the blocks of them grid point `t` reads. -/
abbrev xblk (c : Dev nD) (t : Fin cfg0.N) : Vec Ideal S8192x128 .f32 := iblk m c 0 t
abbrev yblk (c : Dev nD) (t : Fin cfg0.N) : Vec Ideal S8192x128 .f32 := iblk m c 1 t
abbrev nblk (c : Dev nD) (t : Fin cfg0.N) : Vec Ideal S8192x128 .f32 := iblk m c 2 t

/-- A grid point as a block number. -/
abbrev blockNo (t : Fin cfg0.N) : Fin 32 := ⟨t.val, lt_of_lt_of_eq t.isLt N_0⟩

/-- Every window's block index at point `t` is `(t, 0)`. -/
theorem index_facts : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- The arrays the call is given are the flat arguments viewed as 262144 rows of 128 lanes. -/
theorem rows_x (c : Dev nD) : (V m c main_v0 : S262144x128.Idx → EReal)
    = shapeCast S262144x128 (xarr m c) shapeCasts_S33554432_S262144x128 := by
  show StableHlo.after hostOps0 (fun b => m (c, b)) (Proc.devRef .tc main_v0) = _
  after_results
  rfl
theorem rows_y (c : Dev nD) : (V m c main_v1 : S262144x128.Idx → EReal)
    = shapeCast S262144x128 (yarr m c) shapeCasts_S33554432_S262144x128 := by
  show StableHlo.after hostOps0 (fun b => m (c, b)) (Proc.devRef .tc main_v1) = _
  after_results
  rfl
theorem rows_n (c : Dev nD) : (V m c main_v2 : S262144x128.Idx → EReal)
    = shapeCast S262144x128 (narr m c) shapeCasts_S33554432_S262144x128 := by
  show StableHlo.after hostOps0 (fun b => m (c, b)) (Proc.devRef .tc main_v2) = _
  after_results
  rfl

/-- Entry `(r, q)` of the block point `t` reads is the flat entry at `(t · 8192 + r) · 128 + q`. -/
theorem xblk_apply (c : Dev nD) (t : Fin cfg0.N) (r : Fin 8192) (q : Fin 128) :
    xblk m c t (ix2 r q) = xarr m c (ix1 (flat (blockNo t) r q)) := by
  show iblk m c 0 t (ix2 r q) = _
  unfold iblk
  rw [View.read_apply]
  show V m c main_v0 (((cfg0.win 0).blk t).view.emb (ix2 r q)) = _
  rw [rows_x m c]
  refine shapeCast_apply _ _ _ _ ?_
  rw [Shape.rowMajor_val_one, Shape.rowMajor_val_two]
  show (flat (blockNo t) r q).val = (win0_0.index t 0 * 8192 + 1 * r.val) * 128 + (win0_0.index t 1 * 128 + 1 * q.val)
  rw [(index_facts t).1.1, (index_facts t).1.2, flat_val]
  show (t.val * 8192 + r.val) * 128 + q.val = _
  omega

theorem yblk_apply (c : Dev nD) (t : Fin cfg0.N) (r : Fin 8192) (q : Fin 128) :
    yblk m c t (ix2 r q) = yarr m c (ix1 (flat (blockNo t) r q)) := by
  show iblk m c 1 t (ix2 r q) = _
  unfold iblk
  rw [View.read_apply]
  show V m c main_v1 (((cfg0.win 1).blk t).view.emb (ix2 r q)) = _
  rw [rows_y m c]
  refine shapeCast_apply _ _ _ _ ?_
  rw [Shape.rowMajor_val_one, Shape.rowMajor_val_two]
  show (flat (blockNo t) r q).val = (win0_1.index t 0 * 8192 + 1 * r.val) * 128 + (win0_1.index t 1 * 128 + 1 * q.val)
  rw [(index_facts t).2.1.1, (index_facts t).2.1.2, flat_val]
  show (t.val * 8192 + r.val) * 128 + q.val = _
  omega

theorem nblk_apply (c : Dev nD) (t : Fin cfg0.N) (r : Fin 8192) (q : Fin 128) :
    nblk m c t (ix2 r q) = narr m c (ix1 (flat (blockNo t) r q)) := by
  show iblk m c 2 t (ix2 r q) = _
  unfold iblk
  rw [View.read_apply]
  show V m c main_v2 (((cfg0.win 2).blk t).view.emb (ix2 r q)) = _
  rw [rows_n m c]
  refine shapeCast_apply _ _ _ _ ?_
  rw [Shape.rowMajor_val_one, Shape.rowMajor_val_two]
  show (flat (blockNo t) r q).val = (win0_2.index t 0 * 8192 + 1 * r.val) * 128 + (win0_2.index t 1 * 128 + 1 * q.val)
  rw [(index_facts t).2.2.1, (index_facts t).2.2.2, flat_val]
  show (t.val * 8192 + r.val) * 128 + q.val = _
  omega

/-- The six block totals of grid point `t`. -/
def shares (c : Dev nD) (t : Fin cfg0.N) (k : Fin 6) : EReal :=
  blockTotal (Φ k) (xblk m c t) (yblk m c t) (nblk m c t)

/-- The same for any natural number: zero past the grid. -/
def share (c : Dev nD) (t : ℕ) (k : Fin 6) : EReal := if h : t < cfg0.N then shares m c ⟨t, h⟩ k else 0

/-- Place `k` of the row of totals. -/
abbrev place (k : Fin 6) : S1x8.Idx := ix2 (0 : Fin 1) (k.castLE (by decide) : Fin 8)

/-- After the first point the kept row holds that point's block totals (added to zero). -/
theorem kept_first (c : Dev nD) (h : 0 < cfg0.N) (k : Fin 6) :
    (outsAt0 m c 0 h).2 (place k) = 0 + shares m c ⟨0, h⟩ k := by
  rw [outsAt0_A m c ⟨0, h⟩ rfl (by show ¬(0 % 32 = 31); decide)]
  dsimp only
  refine (congrFun (scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _)
    ((hcond0_0 ⟨0, h⟩).mpr rfl) (fun h' => (by decide : ¬(0 % 32 = 31)) ((hcond0_1 ⟨0, h⟩).mp h'))
    (xblk m c ⟨0, h⟩) (yblk m c ⟨0, h⟩) (nblk m c ⟨0, h⟩)) (place k)).trans ?_
  refine (step_apply (xblk m c ⟨0, h⟩) (yblk m c ⟨0, h⟩) (nblk m c ⟨0, h⟩) (k0_pay2 (F := Ideal)) k).trans ?_
  rw [zero_row_apply]
  rfl

/-- At every later point the kept row gains that point's block totals. -/
theorem kept_next (c : Dev nD) (n : ℕ) (h : n + 1 < cfg0.N) (k : Fin 6) :
    (outsAt0 m c (n + 1) h).2 (place k)
      = (outsAt0 m c n (Nat.lt_of_succ_lt h)).2 (place k) + shares m c ⟨n + 1, h⟩ k := by
  have hN : cfg0.N = 32 := N_0
  have h0 : ¬(⟨n + 1, h⟩ : Fin cfg0.N).val % 32 = 0 := by dsimp only; omega
  by_cases h1 : (⟨n + 1, h⟩ : Fin cfg0.N).val % 32 = 31
  · rw [outsAt0_C m c ⟨n + 1, h⟩ h0 h1]
    dsimp only
    refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun h' => h0 ((hcond0_0 ⟨n + 1, h⟩).mp h')) ((hcond0_1 ⟨n + 1, h⟩).mpr h1)
      (xblk m c ⟨n + 1, h⟩) (yblk m c ⟨n + 1, h⟩) (nblk m c ⟨n + 1, h⟩)
      (outsAt0 m c n (Nat.lt_of_succ_lt h)).2) (place k)).trans ?_
    exact step_apply (xblk m c ⟨n + 1, h⟩) (yblk m c ⟨n + 1, h⟩) (nblk m c ⟨n + 1, h⟩) _ k
  · rw [outsAt0_B m c ⟨n + 1, h⟩ h0 h1]
    dsimp only
    refine (congrFun (scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun h' => h0 ((hcond0_0 ⟨n + 1, h⟩).mp h')) (fun h' => h1 ((hcond0_1 ⟨n + 1, h⟩).mp h'))
      (xblk m c ⟨n + 1, h⟩) (yblk m c ⟨n + 1, h⟩) (nblk m c ⟨n + 1, h⟩)
      (outsAt0 m c n (Nat.lt_of_succ_lt h)).2) (place k)).trans ?_
    exact step_apply (xblk m c ⟨n + 1, h⟩) (yblk m c ⟨n + 1, h⟩) (nblk m c ⟨n + 1, h⟩) _ k

/-- So after point `n` place `k` of the kept row is the sum of the block totals of the points `0 … n`. -/
theorem kept_eq_sum (c : Dev nD) (k : Fin 6) :
    ∀ (n : ℕ) (h : n < cfg0.N), (outsAt0 m c n h).2 (place k) = ∑ t ∈ Finset.range (n + 1), share m c t k
  | 0, h => by
    rw [kept_first, zero_add, Finset.sum_range_one]
    unfold share
    rw [dif_pos h]
  | n + 1, h => by
    rw [kept_next, kept_eq_sum c k n (Nat.lt_of_succ_lt h), Finset.sum_range_succ _ (n + 1)]
    congr 1
    unfold share
    rw [dif_pos h]

/-- The last grid point. -/
abbrev lastPt : Fin cfg0.N := ⟨31, by rw [show cfg0.N = 32 from N_0]; decide⟩

/-- The row the last point leaves in the output block. -/
abbrev lastRow (c : Dev nD) : Buf (Elt Ideal) ((c.tc : Thread nD τ).loc main_v3) := (outsAt0 m c lastPt.val lastPt.isLt).1

/-- It is a copy of the kept row: its place `k` is the sum of all 32 points' block totals. -/
theorem lastRow_apply (c : Dev nD) (k : Fin 6) : lastRow m c (place k) = ∑ t ∈ Finset.range 32, share m c t k := by
  have h30 : 30 < cfg0.N := by rw [show cfg0.N = 32 from N_0]; decide
  show (outsAt0 m c (30 + 1) lastPt.isLt).1 (place k) = _
  rw [outsAt0_C m c lastPt (by decide) (by decide)]
  dsimp only
  refine (congrFun (output_last (F := Ideal) c (grid0.coords lastPt) (ms0_0 lastPt) (hs0_0 lastPt) (ms0_1 lastPt) (hs0_1 lastPt) (ms0_2 lastPt) (hs0_2 lastPt) (ms0_3 lastPt) (hs0_3 lastPt) scM0_0 (Memref.isWhole_whole _)
    (fun h' => (by decide : ¬(31 % 32 = 0)) ((hcond0_0 lastPt).mp h')) ((hcond0_1 lastPt).mpr rfl)
    (xblk m c lastPt) (yblk m c lastPt) (nblk m c lastPt)
    (outsAt0 m c 30 h30).2) (place k)).trans ?_
  refine (step_apply (xblk m c lastPt) (yblk m c lastPt) (nblk m c lastPt) _ k).trans ?_
  rw [kept_eq_sum m c k 30 h30, Finset.sum_range_succ _ 31]
  congr 1

/-- A block number as a grid point. -/
abbrev gridPt (t : Fin 32) : Fin cfg0.N := ⟨t.val, lt_of_lt_of_eq t.isLt N_0.symm⟩

/-- Summed over the 32 grid points, the block totals of a pointwise function make its total over the flat arrays. -/
theorem sum_points (c : Dev nD) (φ : EReal → EReal → EReal → EReal) (j : S_.Idx) :
    ∑ t : Fin 32, blockTotal φ (xblk m c (gridPt t)) (yblk m c (gridPt t)) (nblk m c (gridPt t))
      = total φ (xarr m c) (yarr m c) (narr m c) j :=
  sum_blockTotal φ (xarr m c) (yarr m c) (narr m c) (fun t => xblk m c (gridPt t)) (fun t => yblk m c (gridPt t))
    (fun t => nblk m c (gridPt t)) (fun t r q => xblk_apply m c (gridPt t) r q) (fun t r q => yblk_apply m c (gridPt t) r q)
    (fun t r q => nblk_apply m c (gridPt t) r q) j

/-- So the last row holds, in its first six places, the six totals over the whole arrays. -/
theorem lastRow_total (c : Dev nD) (k : Fin 6) (j : S_.Idx) :
    lastRow m c (place k) = total (Φ k) (xarr m c) (yarr m c) (narr m c) j := by
  rw [lastRow_apply, Finset.sum_range]
  have hs : ∀ t : Fin 32, share m c t.val k = shares m c (gridPt t) k := fun t => dif_pos (gridPt t).isLt
  rw [Finset.sum_congr rfl fun t _ => hs t]
  exact sum_points m c (Φ k) j

/-- The one write-back, after the last point, writes the last row: the output's one block is the whole array. -/
theorem flushed_last (c : Dev nD) (t : Fin cfg0.N) (hf : (cfg0.win 3).flush t = true) :
    (dats m 0 c).flushed 3 t = ((cfg0.win 3).blk t).view.read (Elt Ideal) (lastRow m c) := by
  have hN : cfg0.N = 32 := N_0
  have h31 : t.val = 31 := by have := (flush0_3 t).mp hf; have := t.isLt; omega
  obtain rfl : t = lastPt := Fin.ext h31
  show (cfg0.win 3).cut (grid0.coords lastPt) ((dats m 0 c).after 3 lastPt) = _
  rw [after0_3]
  have hz' : (fun a => win0_3.index lastPt a * main_v3.ty.shape.size a) = fun _ => 0 :=
    funext fun a => by fin_cases a <;> decide
  exact (Memref.read_access_unit_zero (Elt Ideal) main_v3 hz' (fun a => by rw [congrFun hz' a]; simp) (lastRow m c)).symm

/-- So the output array ends holding the last row. -/
theorem final_row (c : Dev nD) : (dats m 0 c).arrAt 3 cfg0.N = lastRow m c :=
  (dats m 0 c).arrAt_eq_of_cover 3 (lastRow m c) (flushed_last m c) fun i =>
    ⟨lastPt, (flush0_3 lastPt).mpr rfl, by
      show i ∈ ((View.whole main_v3).slice (win0_3.rect lastPt)).set
      rw [View.set_slice_whole, Rect.mem_set_unit]
      intro a
      have h0 : (i 0 : Nat) < 1 := (i 0).isLt
      have h1 : (i 1 : Nat) < 8 := (i 1).isLt
      match a with
      | ⟨0, _⟩ =>
        show win0_3.index lastPt 0 * win0_3.size 0 ≤ (i 0 : Nat)
          ∧ (i 0 : Nat) < win0_3.index lastPt 0 * win0_3.size 0 + win0_3.xsize (grid0.coords lastPt) 0
        rw [show win0_3.index lastPt 0 * win0_3.size 0 = 0 from by decide +kernel,
          show win0_3.xsize (grid0.coords lastPt) 0 = 1 from by decide +kernel]
        omega
      | ⟨1, _⟩ =>
        show win0_3.index lastPt 1 * win0_3.size 1 ≤ (i 1 : Nat)
          ∧ (i 1 : Nat) < win0_3.index lastPt 1 * win0_3.size 1 + win0_3.xsize (grid0.coords lastPt) 1
        rw [show win0_3.index lastPt 1 * win0_3.size 1 = 0 from by decide +kernel,
          show win0_3.xsize (grid0.coords lastPt) 1 = 8 from by decide +kernel]
        omega⟩

/-- Reading place `k` out of the row: flatten to eight entries, slice one entry off at `k`, drop its axis. -/
theorem read_place (A : Vec Ideal S1x8 .f32) (k : Fin 6) (off : Fin 1 → Nat) (hoff : off 0 = k.val) (hs : S8.Slices off S1)
    (j : S_.Idx) :
    shapeCast S_ (extractStridedSlice S1 off (shapeCast S8 A shapeCasts_S1x8_S8) hs) shapeCasts_S1_S_ j = A (place k) := by
  refine (shapeCast_apply _ shapeCasts_S1_S_ j (ix1 (0 : Fin 1)) ?_).trans ?_
  · rw [Shape.rowMajor_val_one]
    have := (S_.rowMajor j).isLt
    show 0 = (S_.rowMajor j).val
    have hn : S_.numel = 1 := by decide
    omega
  refine (extractStridedSlice_apply off _ hs (ix1 (0 : Fin 1)) (ix1 (k.castLE (by decide) : Fin 8)) ?_).trans ?_
  · intro a
    match a with
    | ⟨0, _⟩ => show k.val = off 0 + 0; omega
  exact shapeCast_1a_a_apply A shapeCasts_S1x8_S8 _

/-- Place `k` as the operations after the call read it out of a row `A`. -/
abbrev readOut (A : Vec Ideal S1x8 .f32) (off : Fin 1 → Nat) (hs : S8.Slices off S1) : FVec Ideal S_ .f32 :=
  shapeCast S_ (extractStridedSlice S1 off (shapeCast S8 A shapeCasts_S1x8_S8) hs) shapeCasts_S1_S_

/-- Read out of the last row, place `k` is the `k`-th total over the whole arrays. -/
theorem readOut_eq (c : Dev nD) (k : Fin 6) (off : Fin 1 → Nat) (hoff : off 0 = k.val) (hs : S8.Slices off S1) :
    readOut (lastRow m c) off hs = total (Φ k) (xarr m c) (yarr m c) (narr m c) :=
  funext fun j => (read_place (lastRow m c) k off hoff hs j).trans (lastRow_total m c k j)

set_option maxHeartbeats 2000000 in
/-- What the operations after the call compute from the output array: the correlation of the three arguments. -/
theorem result_eq (c : Dev nD) :
    Pipeline.afterTail₀ cfgs (dats m) 0 (V0 m) [hostOps1] c main_v30
      = correlation shapeCasts_S_S1 (xarr m c) (yarr m c) (narr m c) := by
  unfold Pipeline.afterTail₀
  show StableHlo.after hostOps1 _ (Proc.devRef .tc main_v30) = _
  after_results_simp
  have hA : Pipeline.withArrays (cfgs 0).spec c (V0 m c) (fun w => (dats m 0 c).arrAt w (cfgs 0).N)
      (Proc.devRef .tc main_v3) = lastRow m c :=
    (Pipeline.withArrays_arr spec0 launch0.win.arr_inj c _ _ 3).trans (final_row m c)
  rw [hA]
  show closing shapeCasts_S_S1 (readOut (lastRow m c) ![0] slices_S8_S1_0) (readOut (lastRow m c) ![1] slices_S8_S1_1)
    (readOut (lastRow m c) ![2] slices_S8_S1_2) (readOut (lastRow m c) ![3] slices_S8_S1_3)
    (readOut (lastRow m c) ![4] slices_S8_S1_4) (readOut (lastRow m c) ![5] slices_S8_S1_5) = _
  rw [readOut_eq m c 0 ![0] rfl, readOut_eq m c 1 ![1] rfl, readOut_eq m c 2 ![2] rfl, readOut_eq m c 3 ![3] rfl,
    readOut_eq m c 4 ![4] rfl, readOut_eq m c 5 ![5] rfl]
  rfl

/-- The kernel's run, read: every weakly fair execution ends with the result at the correlation of the three
    arguments, and the arguments as they were. -/
theorem run : θ_run defs (onTc (τ := τ) (main (F := Ideal))) ⟨m, fun _ => 0, ρ⟩ fun r => ∀ c : Dev nD,
      r.2.mem ((c.tc : Thread nD τ).loc main_v30) = correlation shapeCasts_S_S1 (xarr m c) (yarr m c) (narr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Totals

end
-- ==== Proof.RefSide.lean ====
/-
  The reference's result at the extended reals.

  The reference forms each of the six totals by one reduction over the whole flat array, started from the zero
  constant: zero plus the sum over every position of the pointwise product — the specification's total. (The squared
  terms come as `n · (x · x)` where the specification has `(n · x) · x`; multiplication of extended reals is
  associative.) It then applies the closing arithmetic to the six totals.
-/
import proofs.«114872_j74758200754433_1_alg».proof.Proof.Gen.ReferenceIdeal.Run
import proofs.«114872_j74758200754433_1_alg».proof.Proof.Gen.ReferenceIdeal.Read
import proofs.«114872_j74758200754433_1_alg».proof.Proof.Spec

noncomputable section

open scoped BigOperators

namespace Cert.ReferenceIdeal.RefValue

open Cert.ReferenceIdeal Cert.ReferenceIdeal.Gen Cert.ReferenceIdeal.Read Idealize.ShloMosaic
open Idealize.ShloMosaic.ValueIdx Cert.WeightedSums Cert.LibBlockSum

/-- A reduction of a flat array `f` from the zero constant is the total of `φ`, when `f` is `φ` of the three
    arrays position by position. -/
theorem reduce_eq_total (φ : EReal → EReal → EReal → EReal) (x y n f : FVec Ideal S33554432 .f32)
    (hf : ∀ a : Fin 33554432, f (ix1 a) = φ (x (ix1 a)) (y (ix1 a)) (n (ix1 a))) :
    Host.reduceAdd (F := Ideal) f (constant S_ .f32 0x00000000#32) reducesTo_S33554432_S_d0 h_S_ = total φ x y n := by
  funext j
  simp only [Host.reduceAdd, Ideal.hostReduceAdd_def]
  refine (Ideal.hostReduceAdd_total reducesTo_S33554432_S_d0 (fun b => b.elim0) f _ j).trans ?_
  rw [sum_idx1]
  unfold total
  rw [show (constant (F := Ideal) S_ .f32 0x00000000#32) (Shape.Idx.first h_S_) = 0 from Ideal.ofBits_zero_f32, zero_add]
  exact Finset.sum_congr rfl fun a _ => hf a

/-- The reference's result is the correlation of its three arguments. -/
theorem result_eq (x0 x1 x2 : FVec Ideal S33554432 .f32) :
    val_main_v27 (F := Ideal) x0 x1 x2 = correlation shapeCasts_S_S1 x0 x1 x2 := by
  have e0 : val_main_v0 (F := Ideal) x2 = total φ0 x0 x1 x2 := reduce_eq_total φ0 x0 x1 x2 _ fun a => rfl
  have e1 : val_main_v2 (F := Ideal) x0 x2 = total φ1 x0 x1 x2 := reduce_eq_total φ1 x0 x1 x2 _ fun a => rfl
  have e2 : val_main_v4 (F := Ideal) x1 x2 = total φ2 x0 x1 x2 := reduce_eq_total φ2 x0 x1 x2 _ fun a => rfl
  have e3 : val_main_v7 (F := Ideal) x0 x2 = total φ3 x0 x1 x2 :=
    reduce_eq_total φ3 x0 x1 x2 _ fun a => (mul_assoc (x2 (ix1 a)) (x0 (ix1 a)) (x0 (ix1 a))).symm
  have e4 : val_main_v10 (F := Ideal) x1 x2 = total φ4 x0 x1 x2 :=
    reduce_eq_total φ4 x0 x1 x2 _ fun a => (mul_assoc (x2 (ix1 a)) (x1 (ix1 a)) (x1 (ix1 a))).symm
  have e5 : val_main_v13 (F := Ideal) x0 x1 x2 = total φ5 x0 x1 x2 := reduce_eq_total φ5 x0 x1 x2 _ fun a => rfl
  unfold val_main_v27 val_main_v26 val_main_v16 val_main_v25 val_main_v14 val_main_v15 val_main_v20 val_main_v24
    val_main_v19 val_main_v23 val_main_v17 val_main_v18 val_main_v21 val_main_v22
  rw [e0, e1, e2, e3, e4, e5]
  rfl

end Cert.ReferenceIdeal.RefValue

end
-- ==== Proof.lean ====
/-
  The kernel streams three flat arrays of 2^25 entries — samples `x`, `y` and weights `n` — through 32 grid points,
  keeps six running totals (`Σ n`, `Σ n·x`, `Σ n·y`, `Σ n·x·x`, `Σ n·y·y`, `Σ x·y·n`), and after the call forms the
  weighted Pearson correlation `(S₀S₅ − S₁S₂) / (√(S₀S₃ − S₁²) · √(S₀S₄ − S₂²))` from them; the reference forms each total
  by one reduction over the whole array and applies the same closing arithmetic.

  Over the extended reals the two agree for every input: each total is a sum in a commutative monoid, so summing block
  by block and then over the blocks is summing over all positions (Proof/LibBlockSum.lean, Proof/Spec.lean), and the one
  difference inside a summand, `(n·x)·x` against `n·(x·x)`, is associativity of the product. No finiteness of the inputs
  is used. The kernel's side is read off its run: what one grid point leaves in the row of totals (Proof/Pieces.lean,
  Proof/Payload.lean), the row after every point by induction over the grid, the write-back and the closing operations
  (Proof/KernelValue.lean); the reference's side off its run (Proof/RefSide.lean). The idealization rewrote nothing,
  so there is nothing to preserve.
-/
import proofs.«114872_j74758200754433_1_alg».proof.Defs
import proofs.«114872_j74758200754433_1_alg».proof.Proof.Gen.Kernel
import proofs.«114872_j74758200754433_1_alg».proof.Proof.Gen.Kernel.Skeleton
import proofs.«114872_j74758200754433_1_alg».proof.Proof.Gen.Kernel.Launch
import proofs.«114872_j74758200754433_1_alg».proof.Proof.Gen.Kernel.Points
import proofs.«114872_j74758200754433_1_alg».proof.Proof.Gen.Kernel.Frame
import proofs.«114872_j74758200754433_1_alg».proof.Proof.Gen.KernelIdeal
import proofs.«114872_j74758200754433_1_alg».proof.Proof.Gen.KernelIdeal.Skeleton
import proofs.«114872_j74758200754433_1_alg».proof.Proof.Gen.KernelIdeal.Launch
import proofs.«114872_j74758200754433_1_alg».proof.Proof.Gen.KernelIdeal.Points
import proofs.«114872_j74758200754433_1_alg».proof.Proof.Gen.KernelIdeal.Frame
import proofs.«114872_j74758200754433_1_alg».proof.Proof.Gen.ReferenceIdeal
import proofs.«114872_j74758200754433_1_alg».proof.Proof.Gen.ReferenceIdeal.Run
import proofs.«114872_j74758200754433_1_alg».proof.Proof.Gen.ReferenceIdeal.Read
import proofs.«114872_j74758200754433_1_alg».proof.Proof.Gen.Pre_finite_inputs
import proofs.«114872_j74758200754433_1_alg».proof.Proof.KernelValue
import proofs.«114872_j74758200754433_1_alg».proof.Proof.RefSide
import Idealize.ShloMosaic.Adequacy
import Idealize.ShloMosaic.Init

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text. -/
theorem preserves : Cert.preserves_Kernel_KernelIdeal := trivial

/-- Both programs end at the weighted Pearson correlation of the arguments they agree on. -/
theorem algebraic : Cert.algebraic_KernelIdeal_ReferenceIdeal := by
  intro m ρ m' ρ' _ hagree
  refine ⟨fun c => Cert.WeightedSums.correlation Cert.KernelIdeal.Gen.shapeCasts_S_S1
    (Cert.KernelIdeal.Totals.xarr m c) (Cert.KernelIdeal.Totals.yarr m c) (Cert.KernelIdeal.Totals.narr m c),
    Cert.KernelIdeal.Totals.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
